-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x65536x1024 : Shape := ⟨3, ![1, 65536, 1024]⟩
abbrev S1024x1024 : Shape := ⟨2, ![1024, 1024]⟩
abbrev S_ : Shape := ⟨0, ![]⟩

class Facts : Prop where
  bcast_S_S1x65536x1024 : S_.BroadcastsInDim S1x65536x1024 (![] : Fin 0 → Fin S1x65536x1024.rank)
  reducesTo_S1x65536x1024_S_d0_1_2 : S1x65536x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x65536x1024 .f32) (main_arg1 : FVec F S1024x1024 .f32) : IVec S_ 1 :=
  let main_v0 : FVec F S1x65536x1024 .f32 := Host.absf main_arg0
  let main_cst : FVec F S_ .f32 := constant S_ .f32 0x7F800000#32
  let main_v1 : FVec F S1x65536x1024 .f32 := broadcastInDim S1x65536x1024 ![] bcast_S_S1x65536x1024 main_cst
  let main_v2 : IVec S1x65536x1024 1 := cmpf .olt main_v0 main_v1
  let main_c : IVec S_ 1 := constantI S_ 1 1#1
  let main_v3 : IVec S_ 1 := (fun x v => Host.reduce IntOp.andi x v reducesTo_S1x65536x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S1x65536x1024 : Shape := ⟨3, ![1, 65536, 1024]⟩
abbrev S1024x1024 : Shape := ⟨2, ![1024, 1024]⟩
abbrev S65536x1024 : Shape := ⟨2, ![65536, 1024]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 6
  | .smem => 0
  | _ => 0

abbrev bufTy : (tb : Table) → Fin (tcTables nBuf tb) → BufTy
  | .hbm, ⟨0, _⟩ => ⟨S1x65536x1024, .f32⟩
  | .hbm, ⟨1, _⟩ => ⟨S1024x1024, .f32⟩
  | .hbm, ⟨2, _⟩ => ⟨S65536x1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S1x1024, .f32⟩
  | .hbm, ⟨9, _⟩ => ⟨S65536x1024, .f32⟩
  | .hbm, ⟨10, _⟩ => ⟨S1x65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S1x65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x65536x1024_S65536x1024 : S1x65536x1024.ShapeCasts S65536x1024
  reducesTo_S1024x1024_S1024_d1 : S1024x1024.ReducesTo [1] S1024
  h_S_ : 0 < S_.numel
  bcast_S1024_S1024x1_0 : S1024.BroadcastsInDim S1024x1 (![0] : Fin 1 → Fin S1024x1.rank)
  shapeCasts_S1024x1_S1x1024 : S1024x1.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  shapeCasts_S512_S512x1 : S512.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  bcast_S65536x1024_S1x65536x1024_1_2 : S65536x1024.BroadcastsInDim S1x65536x1024 (![1, 2] : Fin 2 → Fin S1x65536x1024.rank)
  dot_S512x1024_S1024x1024_S512x1024_1_0_0_1_n_n_wf : DotDims.WF S512x1024 S1024x1024 S512x1024 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S65536x1024.size a
  hwx0_3 : ∀ i : grid0.Coords, EltTy.bits .f32 = 32 ∨ (Rect.block (s := S65536x1024) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x65536x1024 : Shape := ⟨3, ![1, 65536, 1024]⟩
abbrev S1024x1024 : Shape := ⟨2, ![1024, 1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x65536x1024, .f32⟩
  | .hbm, ⟨1, _⟩ => ⟨S1024x1024, .f32⟩
  | .hbm, ⟨2, _⟩ => ⟨S65536x1024, .f32⟩
  | .hbm, ⟨3, _⟩ => ⟨S65536x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S1x65536x1024, .f32⟩
  | _, _ => ⟨S1x65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  shapeCasts_S1x65536x1024_S65536x1024 : S1x65536x1024.ShapeCasts S65536x1024
  reducesTo_S65536x1024_S65536_d1 : S65536x1024.ReducesTo [1] S65536
  h_S_ : 0 < S_.numel
  bcast_S65536_S65536x1_0 : S65536.BroadcastsInDim S65536x1 (![0] : Fin 1 → Fin S65536x1.rank)
  reducesTo_S1024x1024_S1024_d1 : S1024x1024.ReducesTo [1] S1024
  bcast_S1024_S1024x1_0 : S1024.BroadcastsInDim S1024x1 (![0] : Fin 1 → Fin S1024x1.rank)
  transposes_S1024x1024_S1024x1024_1_0 : S1024x1024.Transposes [1, 0] S1024x1024
  transposes_S1024x1_S1x1024_1_0 : S1024x1.Transposes [1, 0] S1x1024
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S65536x1024_S1x65536x1024_1_2 : S65536x1024.BroadcastsInDim S1x65536x1024 (![1, 2] : Fin 2 → Fin S1x65536x1024.rank)
  dot_S65536x1024_S1024x1024_S65536x1024_1_0_0_1_n_n_wf : DotDims.WF S65536x1024 S1024x1024 S65536x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf

class Facts : Prop extends Facts₀ where

variable [Facts]
-- ==== Proof.CosineSpec.lean ====
/-
  The mathematics of the soft-embedding cosine rescoring, stated once over the extended reals and over no program.

  From a row `xr` of the scores (1024 entries) and the embedding table `emb` (1024 × 1024):
    soft e      = Σ_p xr p · emb p e                        (the row's soft embedding)
    rowNorm v   = sqrt (Σ_k v k · v k)                       (a Euclidean norm, with the ideal square root)
    cosRow j    = (Σ_e soft e · emb j e) / max (rowNorm soft · rowNorm (emb j)) ε
  (`cosRowWith` is the same quotient with the second norm supplied as a number)
  with ε the f32 literal both programs carry (its word is kept and never evaluated).  The whole result, over
  [1, 65536, 1024], applies `cosRow` to row `i 1` of the scores at column `i 2`.
-/
import Idealize.ShloMosaic.PureOps.Ideal
import Idealize.ShloMosaic.PureOps.Ideal.Laws
import Idealize.ShloMosaic.Lib.ValueIdx

noncomputable section

open scoped BigOperators

namespace Cert.CosineSpec

open Idealize.ShloMosaic Idealize.ShloMosaic.ValueIdx

/-- The clamp under the quotient: the f32 word both programs print, read at the ideal instance. -/
abbrev eps : EReal := Ideal.ofBits .f32 0x322BCC77#32

/-- One row's soft embedding: the row times the table. -/
def soft (xr : Fin 1024 → EReal) (emb : Fin 1024 → Fin 1024 → EReal) (e : Fin 1024) : EReal :=
  ∑ p : Fin 1024, xr p * emb p e

/-- The Euclidean norm of a vector of 1024 entries, with the ideal square root. -/
def rowNorm (v : Fin 1024 → EReal) : EReal := Ideal.sqrt (∑ k : Fin 1024, v k * v k)

/-- The quotient with the table row's norm supplied as a number `en`: what one tile computes from a row of the scores,
    the table, and the precomputed norm of row `j`. -/
def cosRowWith (xr : Fin 1024 → EReal) (emb : Fin 1024 → Fin 1024 → EReal) (en : EReal) (j : Fin 1024) : EReal :=
  Ideal.div (∑ e : Fin 1024, soft xr emb e * emb j e) (max (rowNorm (soft xr emb) * en) eps)

/-- The cosine of a row's soft embedding against row `j` of the table, the product of norms clamped below by `eps`. -/
def cosRow (xr : Fin 1024 → EReal) (emb : Fin 1024 → Fin 1024 → EReal) (j : Fin 1024) : EReal :=
  cosRowWith xr emb (rowNorm (emb j)) j

/-- Row `r` of the scores, as a function of the column. -/
abbrev scoreRow (X : (⟨3, ![1, 65536, 1024]⟩ : Shape).Idx → EReal) (r : Fin 65536) : Fin 1024 → EReal :=
  fun p => X (ix3 (0 : Fin 1) r p)

/-- The table by its two coordinates. -/
abbrev table (E : (⟨2, ![1024, 1024]⟩ : Shape).Idx → EReal) : Fin 1024 → Fin 1024 → EReal :=
  fun a b => E (ix2 a b)

/-- The whole result: entry (0, r, j) is the cosine of row `r`'s soft embedding against row `j` of the table. -/
def cosAll (X : (⟨3, ![1, 65536, 1024]⟩ : Shape).Idx → EReal) (E : (⟨2, ![1024, 1024]⟩ : Shape).Idx → EReal) :
    (⟨3, ![1, 65536, 1024]⟩ : Shape).Idx → EReal :=
  fun i => cosRow (scoreRow X ⟨(i 1).val, (i 1).isLt⟩) (table E) ⟨(i 2).val, (i 2).isLt⟩

/-- The zero word's sum: a sum started from the f32 zero word is the sum. -/
theorem zero_word_add (s : EReal) : Ideal.ofBits .f32 0x00000000#32 + s = s := by
  rw [Ideal.ofBits_zero_f32, zero_add]

end Cert.CosineSpec

end
-- ==== Proof.RefValue.lean ====
/-
  The reference, read stage by stage, is the specification.

  The reference forms the soft embedding of every row by one product with the table, takes the Euclidean norm of each
  soft-embedding row and of each table row as the square root of a sum of squares started at zero, multiplies each
  row's soft embedding with the transposed table, and divides by the product of the two norms clamped below.  Read at
  the coordinates (0, r, j) each stage is the corresponding piece of `cosRow`: the flattening of the leading unit
  axis is the identity on (r, p), the transposes exchange the two coordinates, and a sum started at the zero word is
  the sum.
-/
import proofs.«153103_j9577777070758_1_alg».proof.Proof.Gen.ReferenceIdeal.Read
import proofs.«153103_j9577777070758_1_alg».proof.Proof.CosineSpec

noncomputable section

open scoped BigOperators

namespace Cert.ReferenceIdeal.RefValue

open Cert.ReferenceIdeal Cert.ReferenceIdeal.Read Idealize.ShloMosaic Idealize.ShloMosaic.ValueIdx Cert.CosineSpec

variable (X : (⟨S1x65536x1024, .f32⟩ : BufTy).Contents (Elt Ideal)) (E : (⟨S1024x1024, .f32⟩ : BufTy).Contents (Elt Ideal))

/-- The first product at (r, e): row `r` of the scores against column `e` of the table. -/
theorem soft_at (r : Fin 65536) (e : Fin 1024) :
    val_main_v1 (F := Ideal) X E (ix2 r e) = soft (scoreRow X r) (table E) e := by
  rw [val_main_v1_apply]
  unfold soft
  refine Finset.sum_congr rfl fun p _ => ?_
  rw [val_main_v0_apply]
  have hx : idx_main_v0 (lidx_main_v1 (ix2 r e) p) = ix3 (0 : Fin 1) r p := funext fun a => Fin.ext (by
    match a with
    | ⟨0, _⟩ => rfl
    | ⟨1, _⟩ => show (r.val * 1024 + p.val) / 1024 % 65536 = r.val; omega
    | ⟨2, _⟩ => show (r.val * 1024 + p.val) % 1024 = p.val; omega)
  have he : ridx_main_v1 (ix2 r e) p = ix2 p e := funext fun a => Fin.ext (by
    match a with
    | ⟨0, _⟩ => rfl
    | ⟨1, _⟩ => rfl)
  rw [hx, he]

/-- The norm of row `r`'s soft embedding, as the reference's keepdims column holds it. -/
theorem softNorm_at (r : Fin 65536) :
    val_main_v2 (F := Ideal) X E (ix2 r (0 : Fin 1)) = rowNorm (soft (scoreRow X r) (table E)) := by
  rw [val_main_v2_apply, val_main_call0_v2_apply, val_main_call0_v1_apply]
  show Ideal.sqrt (Ideal.ofBits .f32 0x00000000#32 + _) = _
  rw [zero_word_add]
  unfold rowNorm
  refine congrArg Ideal.sqrt (Finset.sum_congr rfl fun k _ => ?_)
  rw [val_main_call0_v0_apply]
  have hk : idx_main_call0_v1 (idx_main_call0_v2 (ix2 r (0 : Fin 1))) k = ix2 r k := funext fun a => Fin.ext (by
    match a with
    | ⟨0, _⟩ => rfl
    | ⟨1, _⟩ => rfl)
  rw [hk, soft_at]
  rfl

/-- The norm of row `j` of the table, as the reference's keepdims column holds it. -/
theorem tableNorm_at (j : Fin 1024) :
    val_main_v3 (F := Ideal) E (ix2 j (0 : Fin 1)) = rowNorm (table E j) := by
  rw [val_main_v3_apply, val_main_call1_v2_apply, val_main_call1_v1_apply]
  show Ideal.sqrt (Ideal.ofBits .f32 0x00000000#32 + _) = _
  rw [zero_word_add]
  unfold rowNorm
  refine congrArg Ideal.sqrt (Finset.sum_congr rfl fun k _ => ?_)
  rw [val_main_call1_v0_apply]
  have hk : idx_main_call1_v1 (idx_main_call1_v2 (ix2 j (0 : Fin 1))) k = ix2 j k := funext fun a => Fin.ext (by
    match a with
    | ⟨0, _⟩ => rfl
    | ⟨1, _⟩ => rfl)
  rw [hk]
  rfl

/-- The second product at (r, j): row `r`'s soft embedding against row `j` of the table (the transposed table's column). -/
theorem dots_at (r : Fin 65536) (j : Fin 1024) :
    val_main_v5 (F := Ideal) X E (ix2 r j) = ∑ e : Fin 1024, soft (scoreRow X r) (table E) e * table E j e := by
  rw [val_main_v5_apply]
  refine Finset.sum_congr rfl fun e _ => ?_
  rw [val_main_v4_apply]
  have hl : lidx_main_v5 (ix2 r j) e = ix2 r e := funext fun a => Fin.ext (by
    match a with
    | ⟨0, _⟩ => rfl
    | ⟨1, _⟩ => rfl)
  have hr : idx_main_v4 (ridx_main_v5 (ix2 r j) e) = ix2 j e := funext fun a => Fin.ext (by
    match a with
    | ⟨0, _⟩ => rfl
    | ⟨1, _⟩ => rfl)
  rw [hl, hr, soft_at]

/-- The reference's result is the specification, entry by entry. -/
theorem result_eq : val_main_v13 (F := Ideal) X E = cosAll X E := by
  funext i
  rw [val_main_v13_apply, val_main_v12_apply, val_main_v11_apply, val_main_v9_apply, val_main_v7_apply, val_main_v8_apply,
    val_main_v6_apply, val_main_v10_apply, val_main_cst_apply]
  have h5 : idx_main_v13 i = ix2 (⟨(i 1).val, (i 1).isLt⟩ : Fin 65536) (⟨(i 2).val, (i 2).isLt⟩ : Fin 1024) := funext fun a => Fin.ext (by
    match a with
    | ⟨0, _⟩ => rfl
    | ⟨1, _⟩ => rfl)
  have h2 : idx_main_v7 (idx_main_v13 i) = ix2 (⟨(i 1).val, (i 1).isLt⟩ : Fin 65536) (0 : Fin 1) := funext fun a => Fin.ext (by
    match a with
    | ⟨0, _⟩ => rfl
    | ⟨1, _⟩ => rfl)
  have h3 : idx_main_v6 (idx_main_v8 (idx_main_v13 i)) = ix2 (⟨(i 2).val, (i 2).isLt⟩ : Fin 1024) (0 : Fin 1) := funext fun a => Fin.ext (by
    match a with
    | ⟨0, _⟩ => rfl
    | ⟨1, _⟩ => rfl)
  rw [h2, h3, h5, softNorm_at, tableNorm_at, dots_at]
  rfl

end Cert.ReferenceIdeal.RefValue

end
-- ==== Proof.Tile.lean ====
/-
  One tile of the kernel, read at an entry.

  A tile holds 512 rows of the scores, the whole table, and the row of table norms.  Its body forms the tile's soft
  embeddings by one product (the narrowing to bf16 is the identity on extended reals), sums their squares along each
  row and takes the square root, multiplies the soft embeddings with the table contracted along the table's SECOND
  axis (so no transpose is formed), and divides by the product of the two norms clamped below.  At the entry (p, q)
  of the tile this is `cosRowWith` of row `p` of the tile, the table, and the supplied norm of table row `q`.
-/
import proofs.«153103_j9577777070758_1_alg».proof.Proof.Gen.KernelIdeal.Skeleton
import proofs.«153103_j9577777070758_1_alg».proof.Proof.CosineSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.CosineSpec

/-! ## Layout: a vector as a column, a column spread over the lanes -/

/-- A vector of 512 entries viewed as a 512 × 1 column reads entry `p` at (p, 0). -/
theorem column_of_vector (v : FVec Ideal S512 .f32) (p : Fin 512) :
    shapeCast S512x1 v shapeCasts_S512_S512x1 (ix2 p (0 : Fin 1)) = v (ix1 p) :=
  shapeCast_apply v shapeCasts_S512_S512x1 (ix2 p (0 : Fin 1)) (ix1 p) (by
    rw [Shape.rowMajor_val_one, Shape.rowMajor_val_two]
    show p.val = p.val * 1 + 0
    omega)

/-- A 512 × 1 column broadcast over 1024 lanes reads the column's entry of the same row. -/
theorem column_broadcast (v : FVec Ideal S512x1 .f32) (p : Fin 512) (q : Fin 1024) :
    broadcastTo S512x1024 v broadcasts_S512x1_S512x1024 (ix2 p q) = v (ix2 p (0 : Fin 1)) :=
  broadcastTo_apply v broadcasts_S512x1_S512x1024 (ix2 p q) (ix2 p (0 : Fin 1)) fun ax => by
    match ax with
    | ⟨0, _⟩ => show p.val = if (512 : Nat) = 1 then 0 else p.val; rw [if_neg (by decide)]
    | ⟨1, _⟩ => show 0 = if (1 : Nat) = 1 then 0 else q.val; rw [if_pos rfl]

/-! ## The sum of a row -/

/-- The lane reduction of a 512 × 1024 tile at row `p` is the sum of that row (the accumulator word is the zero of
    addition, so nothing is added to it). -/
theorem row_sum (v : FVec Ideal S512x1024 .f32) (hφ : FKind.Formats .f32)
    (hacc : (0x00000000#32 : BitVec 32) = 0x00000000#32) (p : Fin 512) :
    multiReduction .add [1] S512 v 0x00000000#32 reduces_S512x1024_S512 hφ hacc (ix1 p) = ∑ k : Fin 1024, v (ix2 p k) := by
  refine (Ideal.multiReduction_add_single v 0x00000000#32 reduces_S512x1024_S512 hφ hacc (ix1 p)).trans ?_
  refine Finset.sum_congr rfl fun k _ => congrArg v (funext fun a => Fin.ext ?_)
  match a with
  | ⟨0, _⟩ => rfl
  | ⟨1, _⟩ => rfl

/-! ## The two products at an entry -/

theorem lhs_rows_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_rows_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_rows_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_rows_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The first product into a zero accumulator, at (p, e): row `p` of the left operand against column `e` of the right. -/
theorem product_rows (l : FVec Ideal S512x1024 .bf16) (r : FVec Ideal S1024x1024 .bf16) (p : Fin 512) (e : Fin 1024) :
    matmul dot_S512x1024_S1024x1024_S512x1024_1_0_0_1_n_n none l r (constant (F := Ideal) S512x1024 .f32 0x00000000#32) (ix2 p e)
      = ∑ k : Fin 1024, l (ix2 p k) * r (ix2 k e) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p e) ((contrEquiv1 dot_S512x1024_S1024x1024_S512x1024_1_0_0_1_n_n 1024 rfl rfl).symm k) = ix2 p k := funext fun a => Fin.ext (by
    match a with
    | ⟨0, _⟩ => exact lhs_rows_0 _ _
    | ⟨1, _⟩ => exact (lhs_rows_1 _ _).trans hk)
  have er : dot_S512x1024_S1024x1024_S512x1024_1_0_0_1_n_n.rhsIdx (ix2 p e) ((contrEquiv1 dot_S512x1024_S1024x1024_S512x1024_1_0_0_1_n_n 1024 rfl rfl).symm k) = ix2 k e := funext fun a => Fin.ext (by
    match a with
    | ⟨0, _⟩ => exact (rhs_rows_0 _ _).trans hk
    | ⟨1, _⟩ => exact rhs_rows_1 _ _)
  rw [el, er]

theorem lhs_cols_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_cols_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_cols_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_cols_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The second product into a zero accumulator, at (p, q): row `p` of the left operand against ROW `q` of the right
    (both operands contracted along their second axis). -/
theorem product_cols (l : FVec Ideal S512x1024 .bf16) (r : FVec Ideal S1024x1024 .bf16) (p : Fin 512) (q : Fin 1024) :
    matmul dot_S512x1024_S1024x1024_S512x1024_1_1_0_0_n_n none l r (constant (F := Ideal) S512x1024 .f32 0x00000000#32) (ix2 p q)
      = ∑ e : Fin 1024, l (ix2 p e) * r (ix2 q e) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_cols_0 _ _
    | ⟨1, _⟩ => exact (lhs_cols_1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_cols_0 _ _
    | ⟨1, _⟩ => exact (rhs_cols_1 _ _).trans hk)
  rw [el, er]

/-! ## The tile's soft embeddings, and the body's result at an entry -/

/-- The tile's soft embeddings: the body's first product, of the tile's rows (narrowed) and the table (narrowed). -/
abbrev softTile (x0 : Vec Ideal S512x1024 .f32) (x1 : Vec Ideal S1024x1024 .f32) : FVec Ideal S512x1024 .f32 :=
  matmul dot_S512x1024_S1024x1024_S512x1024_1_0_0_1_n_n none
    (truncf .bf16 (shapeCast S512x1024 x0 shapeCasts_S512x1024_S512x1024) bitsLt_bf16_f32) (truncf .bf16 x1 bitsLt_bf16_f32)
    (constant (F := Ideal) S512x1024 .f32 0x00000000#32)

/-- Entry (p, e) of the tile's soft embeddings is the soft embedding of the tile's row `p` at `e`. -/
theorem softTile_apply (x0 : Vec Ideal S512x1024 .f32) (x1 : Vec Ideal S1024x1024 .f32) (p : Fin 512) (e : Fin 1024) :
    softTile x0 x1 (ix2 p e) = soft (fun k => x0 (ix2 p k)) (table x1) e := by
  unfold softTile soft
  rw [product_rows]
  refine Finset.sum_congr rfl fun k _ => ?_
  rw [truncf_apply, truncf_apply, shapeCast_self]

/-- THE TILE AT AN ENTRY: the body's result at (p, q) is the clamped cosine quotient of the tile's row `p` against table
    row `q`, with the table row's norm read from the third operand at lane `q`. -/
theorem tile_apply (x0 : Vec Ideal S512x1024 .f32) (x1 : Vec Ideal S1024x1024 .f32) (x2 : Vec Ideal S1x1024 .f32)
    (p : Fin 512) (q : Fin 1024) :
    k0_pay1 (F := Ideal) x0 x1 x2 (ix2 p q) = cosRowWith (fun k => x0 (ix2 p k)) (table x1) (x2 (ix2 (0 : Fin 1) q)) q := by
  unfold k0_pay1
  dsimp only
  rw [divf_apply, maximumf_apply, mulf_apply, broadcast_apply, column_broadcast, broadcastTo_1b_ab_apply, shapeCast_self x2]
  unfold cosRowWith
  refine congrArg₂ Ideal.div ?_ (congrArg₂ max (congrArg₂ (· * ·) ?_ rfl) rfl)
  · -- the second product: the tile's soft embeddings against the table's rows
    rw [product_cols]
    refine Finset.sum_congr rfl fun e _ => ?_
    rw [truncf_apply, truncf_apply]
    exact congrArg (· * x1 (ix2 q e)) (softTile_apply x0 x1 p e)
  · -- the norm of the row's soft embedding: the square root of the row's sum of squares
    show Ideal.sqrt _ = _
    unfold rowNorm
    refine congrArg Ideal.sqrt ?_
    refine (column_of_vector _ p).trans ?_
    refine (row_sum _ _ _ p).trans ?_
    refine Finset.sum_congr rfl fun k _ => ?_
    rw [mulf_apply]
    exact congrArg₂ (· * ·) (softTile_apply x0 x1 p k) (softTile_apply x0 x1 p k)

end Cert.KernelIdeal.Tile

end
-- ==== Proof.Region.lean ====
/-
  From tiles to the whole array.

  The grid has 128 points.  Point t stages rows 512·t … 512·t + 511 of the (flattened) scores, the whole table and
  the whole row of table norms, and writes back rows 512·t … 512·t + 511 of the output.  So what a point writes back
  is the corresponding block of ONE function of the three arrays as the region finds them, `regionOut`: entry (r, j)
  is `cosRowWith` of row r of the scores, the table, and the norm the third array holds at lane j.  Row r lies in
  the block of point r / 512, so the blocks cover the output and the array ends holding `regionOut`.
-/
import proofs.«153103_j9577777070758_1_alg».proof.Proof.Gen.KernelIdeal.Frame
import proofs.«153103_j9577777070758_1_alg».proof.Proof.Tile

set_option maxRecDepth 16384

noncomputable section

open scoped BigOperators

namespace Cert.KernelIdeal.Region

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tile Cert.CosineSpec

variable (m : (ℓ : Loc nD τ sig) → Buf (Elt Ideal) ℓ)

/-- The three arrays as the region finds them, at their literal types. -/
abbrev scoresArr (c : Dev nD) : Vec Ideal S65536x1024 .f32 := V m c main_v0
abbrev tableArr (c : Dev nD) : Vec Ideal S1024x1024 .f32 := V m c main_arg1
abbrev normsArr (c : Dev nD) : Vec Ideal S1x1024 .f32 := V m c main_v5

/-- The three staged blocks at a point, at their literal types. -/
abbrev scoresBlk (c : Dev nD) (t : Fin cfg0.N) : Vec Ideal S512x1024 .f32 := iblk m c 0 t
abbrev tableBlk (c : Dev nD) (t : Fin cfg0.N) : Vec Ideal S1024x1024 .f32 := iblk m c 1 t
abbrev normsBlk (c : Dev nD) (t : Fin cfg0.N) : Vec Ideal S1x1024 .f32 := iblk m c 2 t

/-- What the region computes, as one function of the three arrays: entry (r, j) from row r of the first, the whole
    second, and lane j of the third. -/
def regionOut (A0 : Vec Ideal S65536x1024 .f32) (A1 : Vec Ideal S1024x1024 .f32) (A2 : Vec Ideal S1x1024 .f32) :
    Vec Ideal S65536x1024 .f32 :=
  fun i => cosRowWith (fun k => A0 (ix2 (⟨(i 0).val, (i 0).isLt⟩ : Fin 65536) k)) (table A1)
    (A2 (ix2 (0 : Fin 1) (⟨(i 1).val, (i 1).isLt⟩ : Fin 1024))) ⟨(i 1).val, (i 1).isLt⟩

/-- The quotient depends only on its four arguments. -/
theorem cosRowWith_congr {xr xr' : Fin 1024 → EReal} {emb emb' : Fin 1024 → Fin 1024 → EReal} {en en' : EReal} {j j' : Fin 1024}
    (h1 : xr = xr') (h2 : emb = emb') (h3 : en = en') (h4 : j = j') : cosRowWith xr emb en j = cosRowWith xr' emb' en' j' := by
  subst h1 h2 h3 h4; rfl

theorem zero_offsets : (![0, 0] : Fin 2 → Nat) = fun _ => 0 := funext fun a => by fin_cases a <;> rfl

/-- The printed index maps over the grid: the scores and the output move one block of rows per point, the table and
    the norms stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The staged block of scores at point t is rows 512·t … of the scores array. -/
theorem scoresBlk_apply (c : Dev nD) (t : Fin cfg0.N) (p : Fin 512) (k : Fin 1024) (r : Fin 65536) (hr : r.val = t.val * 512 + p.val) :
    scoresBlk m c t (ix2 p k) = scoresArr m c (ix2 r k) := by
  obtain ⟨e0, e1, -⟩ := idx_facts t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The staged table is the whole table. -/
theorem tableBlk_eq (c : Dev nD) (t : Fin cfg0.N) : tableBlk m c t = tableArr m c := by
  obtain ⟨-, -, e2, e3, -⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The staged row of norms is the whole row. -/
theorem normsBlk_eq (c : Dev nD) (t : Fin cfg0.N) : normsBlk m c t = normsArr m c := by
  obtain ⟨-, -, -, -, e4, e5, -⟩ := idx_facts t
  funext y
  show V m c main_v5 (((cfg0.win 2).blk t).view.emb y) = V m c main_v5 y
  refine congrArg (V m c main_v5) (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- WHAT POINT t WRITES BACK is block t of `regionOut` of the arrays as the region finds them. -/
theorem flushed_eq (c : Dev nD) (t : Fin cfg0.N) :
    (dats m 0 c).flushed 3 t = ((cfg0.win 3).blk t).view.read (Elt Ideal) (regionOut (scoresArr m c) (tableArr m c) (normsArr m c)) := by
  show (cfg0.win 3).cut (grid0.coords t) ((dats m 0 c).after 3 t) = _
  rw [after0_3]
  unfold out0_3
  rw [View.canon_unit_zero zero_offsets]
  simp only [View.ld_unit_zero (S := S512x1024) zero_offsets, View.ld_unit_zero (S := S1024x1024) zero_offsets, View.ld_unit_zero (S := S1x1024) zero_offsets]
  obtain ⟨-, -, -, -, -, -, e6, e7⟩ := idx_facts t
  have ht : t.val < 128 := lt_of_lt_of_eq t.isLt N_0
  funext j
  obtain ⟨p, q, rfl⟩ : ∃ (p : Fin 512) (q : Fin 1024), j = ix2 p q := ⟨j 0, j 1, eq_ix2 j⟩
  show k0_pay1 (F := Ideal) (scoresBlk m c t) (tableBlk m c t) (normsBlk m c t) (ix2 p q)
    = regionOut (scoresArr m c) (tableArr m c) (normsArr m c) (((cfg0.win 3).blk t).view.emb (ix2 p q))
  refine (tile_apply (scoresBlk m c t) (tableBlk m c t) (normsBlk m c t) p q).trans ?_
  unfold regionOut
  have h0 : ((((cfg0.win 3).blk t).view.emb (ix2 p q)) 0).val = t.val * 512 + p.val := by
    show win0_3.index t (0 : Fin 2) * 512 + 1 * p.val = _; omega
  have h1 : ((((cfg0.win 3).blk t).view.emb (ix2 p q)) 1).val = q.val := by
    show win0_3.index t (1 : Fin 2) * 1024 + 1 * q.val = _; omega
  refine cosRowWith_congr (funext fun k => ?_) ?_ ?_ (Fin.ext h1.symm)
  · exact scoresBlk_apply m c t p k _ h0
  · rw [tableBlk_eq]
  · rw [normsBlk_eq]
    exact congrArg (normsArr m c) (funext fun a => Fin.ext (by
      match a with
      | ⟨0, _⟩ => rfl
      | ⟨1, _⟩ => exact h1.symm))

/-- An index of the output array is in point t's block iff each coordinate is in the block's range on its axis. -/
theorem mem_blk (t : Fin cfg0.N) (i : S65536x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v6).slice (win0_3.rect t)).set ↔ _
  rw [View.set_slice_whole, Rect.mem_set_unit]
  exact Iff.rfl

/-- Every entry of the output lies in the block some point writes back: row r in the block of point r / 512. -/
theorem covered (i : S65536x1024.Idx) : ∃ t : Fin cfg0.N, (cfg0.win 3).flush t = true ∧ i ∈ ((cfg0.win 3).blk t).view.set := by
  have hi0 : (i 0).val < 65536 := (i 0).isLt
  have hi1 : (i 1).val < 1024 := (i 1).isLt
  refine ⟨⟨(i 0).val / 512, lt_of_lt_of_eq (by omega : (i 0).val / 512 < 128) N_0.symm⟩, flush0_3 _, ?_⟩
  rw [mem_blk]
  obtain ⟨-, -, -, -, -, -, e6, e7⟩ := idx_facts ⟨(i 0).val / 512, lt_of_lt_of_eq (by omega : (i 0).val / 512 < 128) N_0.symm⟩
  intro a
  match a with
  | ⟨0, _⟩ =>
    show win0_3.index _ (0 : Fin 2) * 512 ≤ (i 0).val ∧ (i 0).val < win0_3.index _ (0 : Fin 2) * 512 + 512
    rw [e6]; show (i 0).val / 512 * 512 ≤ (i 0).val ∧ (i 0).val < (i 0).val / 512 * 512 + 512; omega
  | ⟨1, _⟩ =>
    show win0_3.index _ (1 : Fin 2) * 1024 ≤ (i 1).val ∧ (i 1).val < win0_3.index _ (1 : Fin 2) * 1024 + 1024
    rw [e7]; omega

/-- THE OUTPUT ARRAY after the run is `regionOut` of the three arrays as the region finds them. -/
theorem final (c : Dev nD) :
    (dats m 0 c).arrAt 3 cfg0.N = regionOut (scoresArr m c) (tableArr m c) (normsArr m c) :=
  (dats m 0 c).arrAt_eq_of_cover 3 (regionOut (scoresArr m c) (tableArr m c) (normsArr m c)) (fun t _ => flushed_eq m c t) covered

end Cert.KernelIdeal.Region

end
-- ==== Proof.HostSides.lean ====
/-
  The host lines around the region.

  Before the region the host flattens the scores' leading unit axis, and prepares the norms of the table's rows: the
  table squared entry by entry, summed along each row from zero, viewed as a column, square-rooted, and the column
  re-laid as one row of 1024 lanes.  After the region the host only puts the unit axis back in front of the region's
  output.  Read at an entry: the flattened scores at (r, k) are the scores at (0, r, k); the prepared row at lane j
  is the Euclidean norm of table row j; the result at (0, r, j) is the region's output at (r, j).
-/
import proofs.«153103_j9577777070758_1_alg».proof.Proof.Gen.KernelIdeal.Frame
import proofs.«153103_j9577777070758_1_alg».proof.Proof.CosineSpec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HostSides

open Idealize.ShloMosaic Idealize.ShloMosaic.TcCoe Idealize.SL.Sem Idealize.ShloMosaic.ValueIdx Idealize.ShloMosaic.StableHlo
open Cert.KernelIdeal Cert.KernelIdeal.Gen Cert.CosineSpec

variable (m : (ℓ : Loc nD τ sig) → Buf (Elt Ideal) ℓ)

/-- The scores and the table as launched, at their literal types. -/
abbrev scoresArg (c : Dev nD) : Vec Ideal S1x65536x1024 .f32 := m ((c : Thread nD τ).loc main_arg0)
abbrev tableArg (c : Dev nD) : Vec Ideal S1024x1024 .f32 := m ((c : Thread nD τ).loc main_arg1)

/-- The first array the region stages is the scores with the leading unit axis flattened away. -/
theorem scores_eq (c : Dev nD) :
    (V m c main_v0 : Vec Ideal S65536x1024 .f32) = shapeCast S65536x1024 (scoresArg m c) shapeCasts_S1x65536x1024_S65536x1024 := by
  show StableHlo.after hostOps0 (fun b => m (c, b)) (Proc.devRef .tc main_v0) = _
  after_results
  rfl

/-- Entry (r, k) of the flattened scores is entry (0, r, k) of the scores. -/
theorem scores_apply (c : Dev nD) (r : Fin 65536) (k : Fin 1024) :
    (V m c main_v0 : Vec Ideal S65536x1024 .f32) (ix2 r k) = scoresArg m c (ix3 (0 : Fin 1) r k) := by
  refine (congrFun (scores_eq m c) (ix2 r k)).trans ?_
  exact shapeCast_apply (scoresArg m c) shapeCasts_S1x65536x1024_S65536x1024 (ix2 r k) (ix3 (0 : Fin 1) r k) (by
    rw [Shape.rowMajor_val_three, Shape.rowMajor_val_two]
    show (0 * 65536 + r.val) * 1024 + k.val = r.val * 1024 + k.val
    omega)

/-- The third array the region stages: the table's row norms, prepared by the host, laid out as one row. -/
theorem norms_eq (c : Dev nD) :
    (V m c main_v5 : Vec Ideal S1x1024 .f32)
      = shapeCast S1x1024 (Host.sqrt (F := Ideal) (broadcastInDim S1024x1 ![0] bcast_S1024_S1024x1_0
          (Host.reduceAdd (F := Ideal) (mulf (tableArg m c) (tableArg m c)) (constant (F := Ideal) S_ .f32 0x00000000#32) reducesTo_S1024x1024_S1024_d1 h_S_)))
        shapeCasts_S1024x1_S1x1024 := by
  show StableHlo.after hostOps0 (fun b => m (c, b)) (Proc.devRef .tc main_v5) = _
  after_results
  rfl

/-- Lane j of the prepared row is the Euclidean norm of table row j. -/
theorem norms_apply (c : Dev nD) (j : Fin 1024) :
    (V m c main_v5 : Vec Ideal S1x1024 .f32) (ix2 (0 : Fin 1) j) = rowNorm (table (tableArg m c) j) := by
  refine (congrFun (norms_eq m c) (ix2 (0 : Fin 1) j)).trans ?_
  refine (shapeCast_apply _ shapeCasts_S1024x1_S1x1024 (ix2 (0 : Fin 1) j) (ix2 j (0 : Fin 1)) (by
    rw [Shape.rowMajor_val_two, Shape.rowMajor_val_two]
    show j.val * 1 + 0 = 0 * 1024 + j.val
    omega)).trans ?_
  show Ideal.sqrt _ = _
  unfold rowNorm
  refine congrArg Ideal.sqrt ?_
  refine (broadcastInDim_apply _ bcast_S1024_S1024x1_0 _ (ix2 j (0 : Fin 1)) (ix1 j) (fun a => match a with
    | ⟨0, _⟩ => by show j.val = if (1024 : Nat) = 1 then 0 else j.val; rw [if_neg (by decide)])).trans ?_
  simp only [Host.reduceAdd, Ideal.hostReduceAdd_def]
  rw [Ideal.hostReduceAdd_single reducesTo_S1024x1024_S1024_d1 (by decide)]
  refine (zero_word_add _).trans ?_
  refine Finset.sum_congr rfl fun k _ => ?_
  rw [mulf_apply]
  have hk : (show S1024x1024.Reduces [1] S1024 by decide).lift (ix1 j) k = ix2 j k := funext fun a => Fin.ext (by
    match a with
    | ⟨0, _⟩ => rfl
    | ⟨1, _⟩ => rfl)
  rw [hk]
  rfl

/-- THE RESULT: the host tail puts the unit axis back in front of the region's output array. -/
theorem result_eq (c : Dev nD) :
    (Pipeline.afterTail₀ cfgs (dats m) 0 (V0 m) [hostOps1] c main_v7 : Vec Ideal S1x65536x1024 .f32)
      = broadcastInDim S1x65536x1024 ![1, 2] bcast_S65536x1024_S1x65536x1024_1_2 ((dats m 0 c).arrAt 3 cfg0.N) := by
  unfold Pipeline.afterTail₀
  show StableHlo.after hostOps1 _ (Proc.devRef .tc main_v7) = _
  after_results
  exact congrArg _ (Pipeline.withArrays_arr spec0 launch0.win.arr_inj c _ _ 3)

/-- Entry (0, r, j) of a 65536 × 1024 array with the unit axis put in front is its entry (r, j). -/
theorem unit_axis_apply (R : Vec Ideal S65536x1024 .f32) (i : S1x65536x1024.Idx) :
    broadcastInDim S1x65536x1024 ![1, 2] bcast_S65536x1024_S1x65536x1024_1_2 R i
      = R (ix2 (⟨(i 1).val, (i 1).isLt⟩ : Fin 65536) (⟨(i 2).val, (i 2).isLt⟩ : Fin 1024)) :=
  broadcastInDim_apply _ bcast_S65536x1024_S1x65536x1024_1_2 R i _ (fun a => match a with
    | ⟨0, _⟩ => by show (i 1).val = if (65536 : Nat) = 1 then 0 else (i 1).val; rw [if_neg (by decide)]
    | ⟨1, _⟩ => by show (i 2).val = if (1024 : Nat) = 1 then 0 else (i 2).val; rw [if_neg (by decide)])

end Cert.KernelIdeal.HostSides

end
-- ==== Proof.Whole.lean ====
/-
  The kernel program's result.

  The region's output at (r, j) is the clamped cosine quotient of row r of the flattened scores against table row j
  with the norm read from the prepared row; the flattened scores are the scores, the staged table is the table as
  launched, and the prepared row holds the table rows' norms.  So the program's result, the region's output with the
  unit axis put back, is `cosAll` of the two arguments, and the arguments end as launched.
-/
import proofs.«153103_j9577777070758_1_alg».proof.Proof.Region
import proofs.«153103_j9577777070758_1_alg».proof.Proof.HostSides

set_option maxRecDepth 16384

noncomputable section

open scoped BigOperators

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Region Cert.KernelIdeal.HostSides Cert.CosineSpec

variable (m : (ℓ : Loc nD τ sig) → Buf (Elt Ideal) ℓ) (ρ : Dev nD → PrngReg)

/-- The region's output with the unit axis in front is the specification of the two arguments, entry by entry. -/
theorem regionOut_spec (c : Dev nD) (i : S1x65536x1024.Idx) :
    broadcastInDim S1x65536x1024 ![1, 2] bcast_S65536x1024_S1x65536x1024_1_2
        (regionOut (scoresArr m c) (tableArr m c) (normsArr m c)) i
      = cosAll (scoresArg m c) (tableArg m c) i := by
  rw [unit_axis_apply]
  unfold regionOut cosAll cosRow
  refine cosRowWith_congr (funext fun k => ?_) ?_ ?_ rfl
  · exact scores_apply m c _ k
  · show table (V m c main_arg1) = table (tableArg m c)
    rw [V_main_arg1]
  · exact norms_apply m c _

/-- The program's result buffer after the run is the specification of the two arguments. -/
theorem result (c : Dev nD) :
    (Pipeline.afterTail₀ cfgs (dats m) 0 (V0 m) [hostOps1] c main_v7 : Vec Ideal S1x65536x1024 .f32)
      = cosAll (scoresArg m c) (tableArg m c) := by
  rw [result_eq, Region.final]
  funext i
  exact regionOut_spec m c i

/-- THE RUN, READ: every weakly fair execution ends with the result at `cosAll` of the arguments and the arguments
    as launched. -/
theorem run : θ_run defs (onTc (τ := τ) (main (F := Ideal))) ⟨m, fun _ => 0, ρ⟩ fun r => ∀ c : Dev nD,
      r.2.mem ((c.tc : Thread nD τ).loc main_v7) = cosAll (scoresArg m c) (tableArg m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (result m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Whole

end
-- ==== Proof.lean ====
/-
  Soft-embedding cosine rescoring: the tiled kernel and the plain reference compute one function.

  From scores x of shape [1, 65536, 1024] and a table emb of shape [1024, 1024], both programs form, for every row r of
  the scores and every table row j,
      (Σ_e S r e · emb j e) / max (sqrt (Σ_e S r e · S r e) · sqrt (Σ_k emb j k · emb j k)) ε,   S r e = Σ_p x 0 r p · emb p e,
  with the same f32 word ε.  The kernel works on 128 tiles of 512 rows, receives the table rows' norms from the host as a
  row of 1024 lanes, narrows its product operands to bf16 (the identity on extended reals) and contracts the second
  product along the table's second axis; the reference transposes instead and takes its norms inside.  On the extended
  reals these are the same sums of the same products, so no algebraic law and no finiteness of the inputs is needed:
  each side is read entry by entry and found to be `Cert.CosineSpec.cosAll` of the two arguments.

  The modules: CosineSpec (the function), RefValue (the reference is it), Tile (one tile of the kernel at an entry),
  Region (the tiles cover the output array), HostSides (the host lines before and after the region), Whole (the
  kernel program's run).  The three frames are the generated runs; the idealization rewrote nothing.
-/
import proofs.«153103_j9577777070758_1_alg».proof.Defs
import proofs.«153103_j9577777070758_1_alg».proof.Proof.Gen.Kernel
import proofs.«153103_j9577777070758_1_alg».proof.Proof.Gen.Kernel.Skeleton
import proofs.«153103_j9577777070758_1_alg».proof.Proof.Gen.Kernel.Launch
import proofs.«153103_j9577777070758_1_alg».proof.Proof.Gen.Kernel.Points
import proofs.«153103_j9577777070758_1_alg».proof.Proof.Gen.Kernel.Frame
import proofs.«153103_j9577777070758_1_alg».proof.Proof.Gen.KernelIdeal
import proofs.«153103_j9577777070758_1_alg».proof.Proof.Gen.KernelIdeal.Skeleton
import proofs.«153103_j9577777070758_1_alg».proof.Proof.Gen.KernelIdeal.Launch
import proofs.«153103_j9577777070758_1_alg».proof.Proof.Gen.KernelIdeal.Points
import proofs.«153103_j9577777070758_1_alg».proof.Proof.Gen.KernelIdeal.Frame
import proofs.«153103_j9577777070758_1_alg».proof.Proof.Gen.ReferenceIdeal
import proofs.«153103_j9577777070758_1_alg».proof.Proof.Gen.ReferenceIdeal.Run
import proofs.«153103_j9577777070758_1_alg».proof.Proof.Gen.ReferenceIdeal.Read
import proofs.«153103_j9577777070758_1_alg».proof.Proof.Gen.Pre_finite_inputs
import proofs.«153103_j9577777070758_1_alg».proof.Proof.RefValue
import proofs.«153103_j9577777070758_1_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result and the reference's result are both `cosAll` of the arguments. -/
theorem algebraic : Cert.algebraic_KernelIdeal_ReferenceIdeal := by
  intro m ρ m' ρ' _ hagree
  refine ⟨fun c => Cert.CosineSpec.cosAll (Cert.KernelIdeal.HostSides.scoresArg m c) (Cert.KernelIdeal.HostSides.tableArg m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v13_eq _ _).trans (Cert.ReferenceIdeal.RefValue.result_eq _ _)).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
